-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x2500000 : Shape := ⟨2, ![2, 2500000]⟩
abbrev S2500000 : Shape := ⟨1, ![2500000]⟩
abbrev S32x1 : Shape := ⟨2, ![32, 1]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S2500000 : S_.BroadcastsInDim S2500000 (![] : Fin 0 → Fin S2500000.rank)
  reducesTo_S2500000_S_d0 : S2500000.ReducesTo [0] S_
  bcast_S_S32x1 : S_.BroadcastsInDim S32x1 (![] : Fin 0 → Fin S32x1.rank)
  reducesTo_S32x1_S_d0_1 : S32x1.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S16x32 .f32) (main_arg9 : FVec F S1x16 .f32) (main_arg10 : FVec F S1 .f32) (main_v33 : IVec S_ 1) : IVec S_ 1 :=
  let main_v34 : FVec F S16x32 .f32 := Host.absf main_arg8
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S1x16 .f32 := Host.absf main_arg9
  let main_cst_14 : FVec F S_ .f32 := constant S_ .f32 0x7F800000#32
  let main_v40 : FVec F S1x16 .f32 := broadcastInDim S1x16 ![] bcast_S_S1x16 main_cst_14
  let main_v41 : IVec S1x16 1 := cmpf .olt main_v39 main_v40
  let main_c_15 : IVec S_ 1 := constantI S_ 1 1#1
  let main_v42 : IVec S_ 1 := (fun x v => Host.reduce IntOp.andi x v reducesTo_S1x16_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S32x1 .f32) (main_arg6 : FVec F S16x32 .f32) (main_arg7 : FVec F S16 .f32) (main_arg8 : FVec F S16x32 .f32) (main_arg9 : FVec F S1x16 .f32) (main_arg10 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x1 .f32 := Host.absf main_arg5
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S16x32 .f32 := Host.absf main_arg6
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_v33

def fn {F : FTy → Type} [FloatOps F] (main_arg0 : FVec F S100000x1 .f32) (main_arg1 : IVec S2x2500000 32) (main_arg2 : FVec F S2500000 .f32) (main_arg3 : FVec F S32x1 .f32) (main_arg4 : FVec F S32 .f32) (main_arg5 : FVec F S32x1 .f32) (main_arg6 : FVec F S16x32 .f32) (main_arg7 : FVec F S16 .f32) (main_arg8 : FVec F S16x32 .f32) (main_arg9 : FVec F S1x16 .f32) (main_arg10 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S2500000 .f32 := Host.absf main_arg2
  let main_cst_0 : FVec F S_ .f32 := constant S_ .f32 0x7F800000#32
  let main_v5 : FVec F S2500000 .f32 := broadcastInDim S2500000 ![] bcast_S_S2500000 main_cst_0
  let main_v6 : IVec S2500000 1 := cmpf .olt main_v4 main_v5
  let main_c_1 : IVec S_ 1 := constantI S_ 1 1#1
  let main_v7 : IVec S_ 1 := (fun x v => Host.reduce IntOp.andi x v reducesTo_S2500000_S_d0 h_S_) main_v6 main_c_1
  let main_v8 : IVec S_ 1 := andi main_v3 main_v7
  let main_v9 : FVec F S32x1 .f32 := Host.absf main_arg3
  let main_cst_2 : FVec F S_ .f32 := constant S_ .f32 0x7F800000#32
  let main_v10 : FVec F S32x1 .f32 := broadcastInDim S32x1 ![] bcast_S_S32x1 main_cst_2
  let main_v11 : IVec S32x1 1 := cmpf .olt main_v9 main_v10
  let main_c_3 : IVec S_ 1 := constantI S_ 1 1#1
  let main_v12 : IVec S_ 1 := (fun x v => Host.reduce IntOp.andi x v reducesTo_S32x1_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S100000x1 : Shape := ⟨2, ![100000, 1]⟩
abbrev S2x2500000 : Shape := ⟨2, ![2, 2500000]⟩
abbrev S2500000 : Shape := ⟨1, ![2500000]⟩
abbrev S32x1 : Shape := ⟨2, ![32, 1]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S1x2500000 : Shape := ⟨2, ![1, 2500000]⟩
abbrev S_ : Shape := ⟨0, ![]⟩
abbrev S100000 : Shape := ⟨1, ![100000]⟩
abbrev S2500000x1 : Shape := ⟨2, ![2500000, 1]⟩
abbrev S1x32 : Shape := ⟨2, ![1, 32]⟩
abbrev S100000x32 : Shape := ⟨2, ![100000, 32]⟩
abbrev S10000x1 : Shape := ⟨2, ![10000, 1]⟩
abbrev S10000x32 : Shape := ⟨2, ![10000, 32]⟩
abbrev S2500000x32 : Shape := ⟨2, ![2500000, 32]⟩
abbrev S32x16 : Shape := ⟨2, ![32, 16]⟩
abbrev S16x1 : Shape := ⟨2, ![16, 1]⟩
abbrev S1x1 : Shape := ⟨2, ![1, 1]⟩
abbrev S10000x16 : Shape := ⟨2, ![10000, 16]⟩

abbrev nBuf : Space → Nat
  | .hbm => 68
  | .vmem => 20
  | .smem => 0
  | _ => 0

abbrev bufTy : (tb : Table) → Fin (tcTables nBuf tb) → BufTy
  | .hbm, ⟨0, _⟩ => ⟨S100000x1, .f32⟩
  | .hbm, ⟨1, _⟩ => ⟨S2x2500000, .i32⟩
  | .hbm, ⟨2, _⟩ => ⟨S2500000, .f32⟩
  | .hbm, ⟨3, _⟩ => ⟨S32x1, .f32⟩
  | .hbm, ⟨4, _⟩ => ⟨S32, .f32⟩
  | .hbm, ⟨5, _⟩ => ⟨S32x1, .f32⟩
  | .hbm, ⟨6, _⟩ => ⟨S16x32, .f32⟩
  | .hbm, ⟨7, _⟩ => ⟨S16, .f32⟩
  | .hbm, ⟨8, _⟩ => ⟨S16x32, .f32⟩
  | .hbm, ⟨9, _⟩ => ⟨S1x16, .f32⟩
  | .hbm, ⟨10, _⟩ => ⟨S1, .f32⟩
  | .hbm, ⟨11, _⟩ => ⟨S1x2500000, .i32⟩
  | .hbm, ⟨12, _⟩ => ⟨S2500000, .i32⟩
  | .hbm, ⟨13, _⟩ => ⟨S1x2500000, .i32⟩
  | .hbm, ⟨14, _⟩ => ⟨S2500000, .i32⟩
  | .hbm, ⟨15, _⟩ => ⟨S_, .f32⟩
  | .hbm, ⟨16, _⟩ => ⟨S2500000, .f32⟩
  | .hbm, ⟨17, _⟩ => ⟨S_, .f32⟩
  | .hbm, ⟨18, _⟩ => ⟨S100000, .f32⟩
  | .hbm, ⟨19, _⟩ => ⟨S2500000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S2500000, .i32⟩
  | .hbm, ⟨30, _⟩ => ⟨S2500000, .i1⟩
  | .hbm, ⟨31, _⟩ => ⟨S_, .i32⟩
  | .hbm, ⟨32, _⟩ => ⟨S2500000, .i32⟩
  | .hbm, ⟨33, _⟩ => ⟨S2500000, .i32⟩
  | .hbm, ⟨34, _⟩ => ⟨S2500000, .i32⟩
  | .hbm, ⟨35, _⟩ => ⟨S2500000x1, .i32⟩
  | .hbm, ⟨36, _⟩ => ⟨S2500000x1, .f32⟩
  | .hbm, ⟨37, _⟩ => ⟨S_, .f32⟩
  | .hbm, ⟨38, _⟩ => ⟨S100000x1, .f32⟩
  | .hbm, ⟨39, _⟩ => ⟨S2500000x1, .i32⟩
  | .hbm, ⟨40, _⟩ => ⟨S100000x1, .f32⟩
  | .hbm, ⟨41, _⟩ => ⟨S100000x1, .f32⟩
  | .hbm, ⟨42, _⟩ => ⟨S1x32, .f32⟩
  | .hbm, ⟨43, _⟩ => ⟨S1x32, .f32⟩
  | .hbm, ⟨44, _⟩ => ⟨S1x32, .f32⟩
  | .hbm, ⟨45, _⟩ => ⟨S100000x32, .bf16⟩
  | .hbm, ⟨46, _⟩ => ⟨S_, .i32⟩
  | .hbm, ⟨47, _⟩ => ⟨S2500000, .i32⟩
  | .hbm, ⟨48, _⟩ => ⟨S2500000, .i1⟩
  | .hbm, ⟨49, _⟩ => ⟨S_, .i32⟩
  | .hbm, ⟨50, _⟩ => ⟨S2500000, .i32⟩
  | .hbm, ⟨51, _⟩ => ⟨S2500000, .i32⟩
  | .hbm, ⟨52, _⟩ => ⟨S2500000, .i32⟩
  | .hbm, ⟨53, _⟩ => ⟨S2500000x1, .i32⟩
  | .hbm, ⟨54, _⟩ => ⟨S2500000x32, .bf16⟩
  | .hbm, ⟨55, _⟩ => ⟨S2500000x32, .f32⟩
  | .hbm, ⟨56, _⟩ => ⟨S_, .f32⟩
  | .hbm, ⟨57, _⟩ => ⟨S100000x32, .f32⟩
  | .hbm, ⟨58, _⟩ => ⟨S2500000x1, .i32⟩
  | .hbm, ⟨59, _⟩ => ⟨S100000x32, .f32⟩
  | .hbm, ⟨60, _⟩ => ⟨S100000x32, .f32⟩
  | .hbm, ⟨61, _⟩ => ⟨S100000x32, .f32⟩
  | .hbm, ⟨62, _⟩ => ⟨S32x16, .f32⟩
  | .hbm, ⟨63, _⟩ => ⟨S32x16, .f32⟩
  | .hbm, ⟨64, _⟩ => ⟨S1x16, .f32⟩
  | .hbm, ⟨65, _⟩ => ⟨S16x1, .f32⟩
  | .hbm, ⟨66, _⟩ => ⟨S1x1, .f32⟩
  | .hbm, ⟨67, _⟩ => ⟨S100000x1, .f32⟩
  | .local _ .vmem, ⟨0, _⟩ => ⟨S10000x1, .f32⟩
  | .local _ .vmem, ⟨1, _⟩ => ⟨S10000x1, .f32⟩
  | .local _ .vmem, ⟨2, _⟩ => ⟨S10000x1, .f32⟩
  | .local _ .vmem, ⟨3, _⟩ => ⟨S10000x1, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S10000x32, .bf16⟩
  | .local _ .vmem, ⟨8, _⟩ => ⟨S10000x32, .bf16⟩
  | .local _ .vmem, ⟨9, _⟩ => ⟨S10000x32, .f32⟩
  | .local _ .vmem, ⟨10, _⟩ => ⟨S10000x32, .f32⟩
  | .local _ .vmem, ⟨11, _⟩ => ⟨S10000x32, .bf16⟩
  | .local _ .vmem, ⟨12, _⟩ => ⟨S10000x32, .bf16⟩
  | .local _ .vmem, ⟨13, _⟩ => ⟨S32x16, .f32⟩
  | .local _ .vmem, ⟨14, _⟩ => ⟨S32x16, .f32⟩
  | .local _ .vmem, ⟨15, _⟩ => ⟨S1x16, .f32⟩
  | .local _ .vmem, ⟨16, _⟩ => ⟨S16x1, .f32⟩
  | .local _ .vmem, ⟨17, _⟩ => ⟨S1x1, .f32⟩
  | .local _ .vmem, ⟨18, _⟩ => ⟨S10000x1, .f32⟩
  | .local _ .vmem, ⟨19, _⟩ => ⟨S10000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  shapeCasts_S100000_S100000x1 : S100000.ShapeCasts S100000x1
  bcast_S_S100000x1 : S_.BroadcastsInDim S100000x1 (![] : Fin 0 → Fin S100000x1.rank)
  transposes_S32x1_S1x32_1_0 : S32x1.Transposes [1, 0] S1x32
  shapeCasts_S32_S1x32 : S32.ShapeCasts S1x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S16x32_S32x16_1_0 : S16x32.Transposes [1, 0] S32x16
  shapeCasts_S16_S1x16 : S16.ShapeCasts S1x16
  transposes_S1x16_S16x1_1_0 : S1x16.Transposes [1, 0] S16x1
  shapeCasts_S1_S1x1 : S1.ShapeCasts S1x1
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S2500000x1_S2500000_n_0_0_1_wf : ScatterDims.WF S100000 S2500000x1 S2500000 [] [0] [0] 1
  gather_S100000x1_S2500000x1_S2500000x1_1_0_n_n_0_1_11_wf : GatherDims.WF S100000x1 S2500000x1 S2500000x1 [1] [0] [] [0] [] 1 ![1, 1]
  scatter_S100000x1_S2500000x1_S2500000x1_1_0_0_1_wf : ScatterDims.WF S100000x1 S2500000x1 S2500000x1 [1] [0] [0] 1
  dot_S10000x1_S1x32_S10000x32_1_0_0_1_n_n_wf : DotDims.WF S10000x1 S1x32 S10000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S10000x32_S32x16_S10000x16_1_0_0_1_n_n_wf : DotDims.WF S10000x32 S32x16 S10000x16 [1] [0] [0] [1] [] []
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .bf16 = 32 ∨ (Rect.block (s := S100000x32) S10000x32.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .bf16 = 32 ∨ (Rect.block (s := S100000x32) S10000x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x1.size a ≤ S16x1.size a
  hwx1_5 : ∀ i : grid1.Coords, EltTy.bits .f32 = 32 ∨ (Rect.block (s := S16x1) S16x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x1.size a ≤ S100000x1.size a
  hwx1_7 : ∀ i : grid1.Coords, EltTy.bits .f32 = 32 ∨ (Rect.block (s := S100000x1) S10000x1.size (cc1_transform_7 i) (hinb1_7 i)).WholeWords (EltTy.packing .f32)

variable [Facts₀]

def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def gather_S100000x1_S2500000x1_S2500000x1_1_0_n_n_0_1_11 : GatherDims S100000x1 S2500000x1 S2500000x1 where
  offsetDims := [1]
  collapsedSliceDims := [0]
  operandBatchingDims := []
  startIndicesBatchingDims := []
  startIndexMap := [0]
  indexVectorDim := 1
  sliceSizes := ![1, 1]
  wf := gather_S100000x1_S2500000x1_S2500000x1_1_0_n_n_0_1_11_wf
def scatter_S100000x1_S2500000x1_S2500000x1_1_0_0_1 : ScatterDims S100000x1 S2500000x1 S2500000x1 where
  updateWindowDims := [1]
  insertedWindowDims := [0]
  scatterDimsToOperandDims := [0]
  indexVectorDim := 1
  wf := scatter_S100000x1_S2500000x1_S2500000x1_1_0_0_1_wf
def dot_S10000x1_S1x32_S10000x32_1_0_0_1_n_n : DotDims S10000x1 S1x32 S10000x32 where
  lhsContracting := [1]
  rhsContracting := [0]
  lhsNonContracting := [0]
  rhsNonContracting := [1]
  lhsBatch := []
  rhsBatch := []
  wf := dot_S10000x1_S1x32_S10000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_v23) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S16x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S10000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x1 : Shape := ⟨2, ![100000, 1]⟩
abbrev S2x2500000 : Shape := ⟨2, ![2, 2500000]⟩
abbrev S2500000 : Shape := ⟨1, ![2500000]⟩
abbrev S32x1 : Shape := ⟨2, ![32, 1]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S1x2500000 : Shape := ⟨2, ![1, 2500000]⟩
abbrev S_ : Shape := ⟨0, ![]⟩
abbrev S2500000x1 : Shape := ⟨2, ![2500000, 1]⟩
abbrev S100000 : Shape := ⟨1, ![100000]⟩
abbrev S1x32 : Shape := ⟨2, ![1, 32]⟩
abbrev S100000x32 : Shape := ⟨2, ![100000, 32]⟩
abbrev S2500000x32 : Shape := ⟨2, ![2500000, 32]⟩
abbrev S32x16 : Shape := ⟨2, ![32, 16]⟩
abbrev S100000x16 : Shape := ⟨2, ![100000, 16]⟩
abbrev S16x1 : Shape := ⟨2, ![16, 1]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x2500000, .i32⟩
  | .hbm, ⟨2, _⟩ => ⟨S2500000, .f32⟩
  | .hbm, ⟨3, _⟩ => ⟨S32x1, .f32⟩
  | .hbm, ⟨4, _⟩ => ⟨S32, .f32⟩
  | .hbm, ⟨5, _⟩ => ⟨S32x1, .f32⟩
  | .hbm, ⟨6, _⟩ => ⟨S16x32, .f32⟩
  | .hbm, ⟨7, _⟩ => ⟨S16, .f32⟩
  | .hbm, ⟨8, _⟩ => ⟨S16x32, .f32⟩
  | .hbm, ⟨9, _⟩ => ⟨S1x16, .f32⟩
  | .hbm, ⟨10, _⟩ => ⟨S1, .f32⟩
  | .hbm, ⟨11, _⟩ => ⟨S1x2500000, .i32⟩
  | .hbm, ⟨12, _⟩ => ⟨S2500000, .i32⟩
  | .hbm, ⟨13, _⟩ => ⟨S1x2500000, .i32⟩
  | .hbm, ⟨14, _⟩ => ⟨S2500000, .i32⟩
  | .hbm, ⟨15, _⟩ => ⟨S_, .i32⟩
  | .hbm, ⟨16, _⟩ => ⟨S2500000, .i32⟩
  | .hbm, ⟨17, _⟩ => ⟨S2500000, .i1⟩
  | .hbm, ⟨18, _⟩ => ⟨S_, .i32⟩
  | .hbm, ⟨19, _⟩ => ⟨S2500000, .i32⟩
  | .hbm, ⟨20, _⟩ => ⟨S2500000, .i32⟩
  | .hbm, ⟨21, _⟩ => ⟨S2500000, .i32⟩
  | .hbm, ⟨22, _⟩ => ⟨S2500000x1, .i32⟩
  | .hbm, ⟨23, _⟩ => ⟨S2500000x1, .f32⟩
  | .hbm, ⟨24, _⟩ => ⟨S_, .f32⟩
  | .hbm, ⟨25, _⟩ => ⟨S100000x1, .f32⟩
  | .hbm, ⟨26, _⟩ => ⟨S2500000x1, .i32⟩
  | .hbm, ⟨27, _⟩ => ⟨S100000x1, .f32⟩
  | .hbm, ⟨28, _⟩ => ⟨S_, .f32⟩
  | .hbm, ⟨29, _⟩ => ⟨S2500000, .f32⟩
  | .hbm, ⟨30, _⟩ => ⟨S_, .f32⟩
  | .hbm, ⟨31, _⟩ => ⟨S100000, .f32⟩
  | .hbm, ⟨32, _⟩ => ⟨S2500000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x1, .f32⟩
  | .hbm, ⟨39, _⟩ => ⟨S1x32, .f32⟩
  | .hbm, ⟨40, _⟩ => ⟨S100000x32, .f32⟩
  | .hbm, ⟨41, _⟩ => ⟨S1x32, .f32⟩
  | .hbm, ⟨42, _⟩ => ⟨S100000x32, .f32⟩
  | .hbm, ⟨43, _⟩ => ⟨S100000x32, .f32⟩
  | .hbm, ⟨44, _⟩ => ⟨S1x32, .f32⟩
  | .hbm, ⟨45, _⟩ => ⟨S100000x32, .f32⟩
  | .hbm, ⟨46, _⟩ => ⟨S100000x32, .f32⟩
  | .hbm, ⟨47, _⟩ => ⟨S_, .f32⟩
  | .hbm, ⟨48, _⟩ => ⟨S100000x32, .f32⟩
  | .hbm, ⟨49, _⟩ => ⟨S100000x32, .f32⟩
  | .hbm, ⟨50, _⟩ => ⟨S1x2500000, .i32⟩
  | .hbm, ⟨51, _⟩ => ⟨S2500000, .i32⟩
  | .hbm, ⟨52, _⟩ => ⟨S1x2500000, .i32⟩
  | .hbm, ⟨53, _⟩ => ⟨S2500000, .i32⟩
  | .hbm, ⟨54, _⟩ => ⟨S_, .i32⟩
  | .hbm, ⟨55, _⟩ => ⟨S2500000, .i32⟩
  | .hbm, ⟨56, _⟩ => ⟨S2500000, .i1⟩
  | .hbm, ⟨57, _⟩ => ⟨S_, .i32⟩
  | .hbm, ⟨58, _⟩ => ⟨S2500000, .i32⟩
  | .hbm, ⟨59, _⟩ => ⟨S2500000, .i32⟩
  | .hbm, ⟨60, _⟩ => ⟨S2500000, .i32⟩
  | .hbm, ⟨61, _⟩ => ⟨S2500000x1, .i32⟩
  | .hbm, ⟨62, _⟩ => ⟨S2500000x32, .f32⟩
  | .hbm, ⟨63, _⟩ => ⟨S_, .f32⟩
  | .hbm, ⟨64, _⟩ => ⟨S100000x32, .f32⟩
  | .hbm, ⟨65, _⟩ => ⟨S2500000x1, .i32⟩
  | .hbm, ⟨66, _⟩ => ⟨S100000x32, .f32⟩
  | .hbm, ⟨67, _⟩ => ⟨S_, .f32⟩
  | .hbm, ⟨68, _⟩ => ⟨S2500000, .f32⟩
  | .hbm, ⟨69, _⟩ => ⟨S_, .f32⟩
  | .hbm, ⟨70, _⟩ => ⟨S100000, .f32⟩
  | .hbm, ⟨71, _⟩ => ⟨S2500000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x32, .f32⟩
  | .hbm, ⟨78, _⟩ => ⟨S100000x32, .f32⟩
  | .hbm, ⟨79, _⟩ => ⟨S32x16, .f32⟩
  | .hbm, ⟨80, _⟩ => ⟨S100000x16, .f32⟩
  | .hbm, ⟨81, _⟩ => ⟨S1x16, .f32⟩
  | .hbm, ⟨82, _⟩ => ⟨S100000x16, .f32⟩
  | .hbm, ⟨83, _⟩ => ⟨S100000x16, .f32⟩
  | .hbm, ⟨84, _⟩ => ⟨S32x16, .f32⟩
  | .hbm, ⟨85, _⟩ => ⟨S100000x16, .f32⟩
  | .hbm, ⟨86, _⟩ => ⟨S100000x16, .f32⟩
  | .hbm, ⟨87, _⟩ => ⟨S_, .f32⟩
  | .hbm, ⟨88, _⟩ => ⟨S100000x16, .f32⟩
  | .hbm, ⟨89, _⟩ => ⟨S100000x16, .f32⟩
  | .hbm, ⟨90, _⟩ => ⟨S16x1, .f32⟩
  | .hbm, ⟨91, _⟩ => ⟨S100000x1, .f32⟩
  | .hbm, ⟨92, _⟩ => ⟨S1x1, .f32⟩
  | .hbm, ⟨93, _⟩ => ⟨S100000x1, .f32⟩
  | .hbm, ⟨94, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_cst : Ref sig .tc := ⟨.hbm, 47, rfl⟩
abbrev main_call0_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_4 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S_S100000x1 : S_.BroadcastsInDim S100000x1 (![] : Fin 0 → Fin S100000x1.rank)
  bcast_S_S100000 : S_.BroadcastsInDim S100000 (![] : Fin 0 → Fin S100000.rank)
  bcast_S100000_S100000x1_0 : S100000.BroadcastsInDim S100000x1 (![0] : Fin 1 → Fin S100000x1.rank)
  transposes_S32x1_S1x32_1_0 : S32x1.Transposes [1, 0] S1x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  transposes_S1x16_S16x1_1_0 : S1x16.Transposes [1, 0] S16x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x1_S2500000x1_S2500000x1_1_0_n_n_0_1_11_wf : GatherDims.WF S100000x1 S2500000x1 S2500000x1 [1] [0] [] [0] [] 1 ![1, 1]
  scatter_S100000x1_S2500000x1_S2500000x1_1_0_0_1_wf : ScatterDims.WF S100000x1 S2500000x1 S2500000x1 [1] [0] [0] 1
  scatter_S100000_S2500000x1_S2500000_n_0_0_1_wf : ScatterDims.WF S100000 S2500000x1 S2500000 [] [0] [0] 1
  dot_S100000x1_S1x32_S100000x32_1_0_0_1_n_n_wf : DotDims.WF S100000x1 S1x32 S100000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S100000x32_S32x16_S100000x16_1_0_0_1_n_n_wf : DotDims.WF S100000x32 S32x16 S100000x16 [1] [0] [0] [1] [] []
  dot_S100000x16_S16x1_S100000x1_1_0_0_1_n_n_wf : DotDims.WF S100000x16 S16x1 S100000x1 [1] [0] [0] [1] [] []

variable [Facts₀]

def gather_S100000x1_S2500000x1_S2500000x1_1_0_n_n_0_1_11 : GatherDims S100000x1 S2500000x1 S2500000x1 where
  offsetDims := [1]
  collapsedSliceDims := [0]
  operandBatchingDims := []
  startIndicesBatchingDims := []
  startIndexMap := [0]
  indexVectorDim := 1
  sliceSizes := ![1, 1]
  wf := gather_S100000x1_S2500000x1_S2500000x1_1_0_n_n_0_1_11_wf
def scatter_S100000x1_S2500000x1_S2500000x1_1_0_0_1 : ScatterDims S100000x1 S2500000x1 S2500000x1 where
  updateWindowDims := [1]
  insertedWindowDims := [0]
  scatterDimsToOperandDims := [0]
  indexVectorDim := 1
  wf := scatter_S100000x1_S2500000x1_S2500000x1_1_0_0_1_wf
def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def dot_S100000x1_S1x32_S100000x32_1_0_0_1_n_n : DotDims S100000x1 S1x32 S100000x32 where
  lhsContracting := [1]
  rhsContracting := [0]
  lhsNonContracting := [0]
  rhsNonContracting := [1]
  lhsBatch := []
  rhsBatch := []
  wf := dot_S100000x1_S1x32_S100000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.HostValue.lean ====
/-
  The host stretches around the two regions of the tiled program, read at the buffers the regions' windows stage.

  Both programs compute the in-degrees, the neighbour sums and the weight layouts with the same host operations, so
  each buffer is stated as the very function of the argument arrays that the reference program's stage of the same
  meaning is; only the mean differs (a product with a reciprocal column here, a quotient there) and is left as the
  product.
-/
import proofs.«182023_j31988916420723_1_alg».proof.Proof.KernelRun
import proofs.«182023_j31988916420723_1_alg».proof.Proof.Gen.ReferenceIdeal.Read
import Idealize.ShloMosaic.Lib.StableHlo.Run

set_option maxRecDepth 16384
noncomputable section
namespace Cert.KernelIdeal.HostValue
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first host stretch: what the first region's windows hold when it is entered -/

theorem V1_arg0 : V1 m ρ c main_arg0 = m ((c : Thread nD τ).loc main_arg0) := by
  show StableHlo.after hostOps0 (W0 m ρ c) (Proc.devRef .tc main_arg0) = _
  after_results_simp <;> rfl

theorem V1_v24 : V1 m ρ c main_v24 = Cert.ReferenceIdeal.Read.val_main_v22 (m ((c : Thread nD τ).loc main_arg3)) := by
  show StableHlo.after hostOps0 (W0 m ρ c) (Proc.devRef .tc main_v24) = _
  after_results_simp <;> rfl

theorem V1_v25 : V1 m ρ c main_v25 = Cert.ReferenceIdeal.Read.val_main_v27 (m ((c : Thread nD τ).loc main_arg5)) := by
  show StableHlo.after hostOps0 (W0 m ρ c) (Proc.devRef .tc main_v25) = _
  after_results_simp <;> rfl

theorem V1_v26 : V1 m ρ c main_v26 = shapeCast S1x32 (m ((c : Thread nD τ).loc main_arg4)) shapeCasts_S32_S1x32 := by
  show StableHlo.after hostOps0 (W0 m ρ c) (Proc.devRef .tc main_v26) = _
  after_results_simp <;> rfl

/-- The reciprocal of the clamped in-degree, as a column. -/
theorem W1_v12 : W1 m ρ c (Proc.devRef .tc main_v12)
    = shapeCast S100000x1 (Host.divf (broadcastInDim S100000 ![] bcast_S_S100000 (constant (F := Ideal) S_ .f32 0x3F800000#32))
        (Cert.ReferenceIdeal.Read.val_main_v19 (m ((c : Thread nD τ).loc main_arg1)))) shapeCasts_S100000_S100000x1 := by
  show StableHlo.after hostOps0 (W0 m ρ c) (Proc.devRef .tc main_v12) = _
  after_results_simp <;> rfl

/-- The first layer's mean as the kernel's program computes it: the neighbour sum times the reciprocal column. -/
theorem V1_v23 : V1 m ρ c main_v23
    = mulf (Cert.ReferenceIdeal.Read.val_main_v13 (m ((c : Thread nD τ).loc main_arg0)) (m ((c : Thread nD τ).loc main_arg1)))
        (W1 m ρ c (Proc.devRef .tc main_v12)) := by
  rw [W1_v12]
  show StableHlo.after hostOps0 (W0 m ρ c) (Proc.devRef .tc main_v23) = _
  after_results_simp <;> rfl

theorem W1_v1 : W1 m ρ c (Proc.devRef .tc main_v1) = Cert.ReferenceIdeal.Read.val_main_v32 (m ((c : Thread nD τ).loc main_arg1)) := by
  show StableHlo.after hostOps0 (W0 m ρ c) (Proc.devRef .tc main_v1) = _
  after_results_simp <;> rfl

theorem W1_v3 : W1 m ρ c (Proc.devRef .tc main_v3) = Cert.ReferenceIdeal.Read.val_main_v34 (m ((c : Thread nD τ).loc main_arg1)) := by
  show StableHlo.after hostOps0 (W0 m ρ c) (Proc.devRef .tc main_v3) = _
  after_results_simp <;> rfl

theorem W1_arg (b : Ref sig .tc) (hb : b = main_arg6 ∨ b = main_arg7 ∨ b = main_arg8 ∨ b = main_arg9 ∨ b = main_arg10) :
    W1 m ρ c (Proc.devRef .tc b) = m ((c : Thread nD τ).loc b) := by
  rcases hb with rfl | rfl | rfl | rfl | rfl <;>
  · show StableHlo.after hostOps0 (W0 m ρ c) (Proc.devRef .tc _) = _
    after_results_simp <;> rfl

/-! ## Between the regions: a buffer that is no window of the first region keeps its contents across it -/

theorem W2_keep (b : Ref sig .tc) (hb : ∀ w, Pipeline.arrRef spec0 w ≠ b) :
    W2 m ρ c (Proc.devRef .tc b) = W1 m ρ c (Proc.devRef .tc b) := W2_of_ne m ρ c b hb

/-! ## The second host stretch: what the second region's windows hold when it is entered -/

theorem V3_v27 : V3 m ρ c main_v27 = W2 m ρ c (Proc.devRef .tc main_v27) := by
  show StableHlo.after hostOps1 (W2 m ρ c) (Proc.devRef .tc main_v27) = _
  after_results_simp <;> rfl

theorem V3_v41 : V3 m ρ c main_v41 = Cert.ReferenceIdeal.Read.val_main_v54 (m ((c : Thread nD τ).loc main_arg6)) := by
  rw [← W1_arg m ρ c main_arg6 (by simp), ← W2_keep m ρ c main_arg6 (by decide)]
  show StableHlo.after hostOps1 (W2 m ρ c) (Proc.devRef .tc main_v41) = _
  after_results_simp <;> rfl

theorem V3_v42 : V3 m ρ c main_v42 = Cert.ReferenceIdeal.Read.val_main_v59 (m ((c : Thread nD τ).loc main_arg8)) := by
  rw [← W1_arg m ρ c main_arg8 (by simp), ← W2_keep m ρ c main_arg8 (by decide)]
  show StableHlo.after hostOps1 (W2 m ρ c) (Proc.devRef .tc main_v42) = _
  after_results_simp <;> rfl

theorem V3_v43 : V3 m ρ c main_v43 = shapeCast S1x16 (m ((c : Thread nD τ).loc main_arg7)) shapeCasts_S16_S1x16 := by
  rw [← W1_arg m ρ c main_arg7 (by simp), ← W2_keep m ρ c main_arg7 (by decide)]
  show StableHlo.after hostOps1 (W2 m ρ c) (Proc.devRef .tc main_v43) = _
  after_results_simp <;> rfl

theorem V3_v44 : V3 m ρ c main_v44 = Cert.ReferenceIdeal.Read.val_main_v63 (m ((c : Thread nD τ).loc main_arg9)) := by
  rw [← W1_arg m ρ c main_arg9 (by simp), ← W2_keep m ρ c main_arg9 (by decide)]
  show StableHlo.after hostOps1 (W2 m ρ c) (Proc.devRef .tc main_v44) = _
  after_results_simp <;> rfl

theorem V3_v45 : V3 m ρ c main_v45 = shapeCast S1x1 (m ((c : Thread nD τ).loc main_arg10)) shapeCasts_S1_S1x1 := by
  rw [← W1_arg m ρ c main_arg10 (by simp), ← W2_keep m ρ c main_arg10 (by decide)]
  show StableHlo.after hostOps1 (W2 m ρ c) (Proc.devRef .tc main_v45) = _
  after_results_simp <;> rfl

/-- The second layer's mean as the kernel's program computes it, over whatever the first region left in its result
    array `h`: the neighbour sum of `h`'s rows times the reciprocal column broadcast along the rows. -/
theorem V3_v40 (h : Buf (Elt Ideal) ((c : Thread nD τ).loc main_v27)) (hh : W2 m ρ c (Proc.devRef .tc main_v27) = h) :
    V3 m ρ c main_v40
      = mulf (Host.scatterAdd scatter_S100000x32_S2500000x1_S2500000x32_1_0_0_1
            (broadcastInDim S100000x32 ![] bcast_S_S100000x32 (constant (F := Ideal) S_ .f32 0x00000000#32))
            (Cert.ReferenceIdeal.Read.val_main_v43 (m ((c : Thread nD τ).loc main_arg1)))
            (extf .f32 (Host.gather gather_S100000x32_S2500000x1_S2500000x32_1_0_n_n_0_1_132 h
              (Cert.ReferenceIdeal.Read.val_main_v40 (m ((c : Thread nD τ).loc main_arg1)))) bitsLt_bf16_f32))
          (broadcastInDim S100000x32 ![0, 1] bcast_S100000x1_S100000x32_0_1 (W1 m ρ c (Proc.devRef .tc main_v12))) := by
  subst hh
  rw [← W2_keep m ρ c main_v12 (by decide)]
  have e1 := (W2_keep m ρ c main_v1 (by decide)).trans (W1_v1 m ρ c)
  have e3 := (W2_keep m ρ c main_v3 (by decide)).trans (W1_v3 m ρ c)
  unfold Cert.ReferenceIdeal.Read.val_main_v43 Cert.ReferenceIdeal.Read.val_main_v40 Cert.ReferenceIdeal.Read.val_main_v39
    Cert.ReferenceIdeal.Read.val_main_v36 Cert.ReferenceIdeal.Read.val_main_v38 Cert.ReferenceIdeal.Read.val_main_v35 Cert.ReferenceIdeal.Read.val_main_v37
    Cert.ReferenceIdeal.Read.val_main_c_4 Cert.ReferenceIdeal.Read.val_main_c_5
  rw [← e1, ← e3]
  show StableHlo.after hostOps1 (W2 m ρ c) (Proc.devRef .tc main_v40) = _
  after_results_simp <;> rfl

end Cert.KernelIdeal.HostValue
end
-- ==== Proof.SageSpec.lean ====
/-
  A two-layer mean-aggregating graph network, row by row, on the extended reals.

  Every dense stage sends a matrix of M rows to a matrix of M rows, and row r of the result reads row r of the
  matrix operands only: entry (r, j) of x · w is the sum over the contracted coordinate c of x (r, c) · w (c, j).
  A hidden layer adds the neighbours' mean times one weight matrix, the node's own features times another and a
  bias row, and keeps the larger of that and zero; the readout is one more product plus a bias row.
-/
import Idealize.ShloMosaic.PureOps.Ideal.Laws
import Idealize.ShloMosaic.Lib.ValueIdx

noncomputable section

open scoped BigOperators

namespace Sage

open Idealize.ShloMosaic Idealize.ShloMosaic.ValueIdx

variable {M K N : ℕ}

/-- Entry (r, j) of the product x · w. -/
def dense (x : (⟨2, ![M, K]⟩ : Shape).Idx → EReal) (w : (⟨2, ![K, N]⟩ : Shape).Idx → EReal) (r : Fin M) (j : Fin N) : EReal :=
  ∑ c : Fin K, x (ix2 r c) * w (ix2 c j)

/-- A hidden layer: the larger of zero and (mean · wl + x · wr) + b, the bias one row added to every row. -/
def hidden (mean x : (⟨2, ![M, K]⟩ : Shape).Idx → EReal) (wl wr : (⟨2, ![K, N]⟩ : Shape).Idx → EReal)
    (b : (⟨2, ![1, N]⟩ : Shape).Idx → EReal) : (⟨2, ![M, N]⟩ : Shape).Idx → EReal :=
  fun i => max ((dense mean wl (i 0) (i 1) + dense x wr (i 0) (i 1)) + b (ix2 (0 : Fin 1) (i 1))) 0

/-- The readout: h · w + b, the bias one row added to every row. -/
def readout (h : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => dense h w (i 0) (i 1) + b (ix2 (0 : Fin 1) (i 1))

theorem hidden_apply (mean x : (⟨2, ![M, K]⟩ : Shape).Idx → EReal) (wl wr : (⟨2, ![K, N]⟩ : Shape).Idx → EReal)
    (b : (⟨2, ![1, N]⟩ : Shape).Idx → EReal) (r : Fin M) (j : Fin N) :
    hidden mean x wl wr b (ix2 r j) = max ((dense mean wl r j + dense x wr r j) + b (ix2 (0 : Fin 1) j)) 0 := rfl

theorem readout_apply (h : (⟨2, ![M, K]⟩ : Shape).Idx → EReal) (w : (⟨2, ![K, N]⟩ : Shape).Idx → EReal)
    (b : (⟨2, ![1, N]⟩ : Shape).Idx → EReal) (r : Fin M) (j : Fin N) :
    readout h w b (ix2 r j) = dense h w r j + b (ix2 (0 : Fin 1) j) := rfl

/-- The sum of three terms does not depend on which of the last two is added first. -/
theorem add_swap (a b c : EReal) : (a + b) + c = (a + c) + b := add_right_comm a b c

/-- A product with the reciprocal of a divisor that is at least one is the quotient by it. -/
theorem mul_recip_eq_div (a d : EReal) (hd : 1 ≤ d) : a * Ideal.div 1 d = Ideal.div a d := by
  have hne : d ≠ 0 := fun h => by rw [h] at hd; exact absurd hd (by norm_num)
  rw [Ideal.div, Ideal.div, if_neg hne, if_neg hne, one_mul]

end Sage

end
-- ==== Proof.LibDenseLayers.lean ====
/-
  Dense products read at an index, at the exact instance (floats read as extended reals).

  The matrix unit's product of an m×k block by a k×n matrix into a zero accumulator, and the host's plain product of
  the same operands, are one sum: entry (a, b) is the sum over the contracted coordinate c of A (a, c) · B (c, b).
  Stated for an arbitrary number of rows, so it serves a block of rows and the whole array alike.
-/
import Idealize.ShloMosaic.PureOps.Ideal.Laws
import Idealize.ShloMosaic.Lib.ValueIdx
import Idealize.ShloMosaic.Lib.StackMember

noncomputable section

open scoped BigOperators

namespace DenseLayers

open Idealize.ShloMosaic Idealize.ShloMosaic.ValueIdx

variable {m k n : ℕ}

/-- Into the zero splat the matrix unit's plain product is the host's plain product, entry by entry. -/
theorem matmul_plain_eq_dotGeneral {φ₁ φ₂ : FTy} (prec : Option ContractPrecision)
    (A : FVec Ideal ⟨2, ![m, k]⟩ φ₁) (B : FVec Ideal ⟨2, ![k, n]⟩ φ₂) (j : (⟨2, ![m, n]⟩ : Shape).Idx) :
    matmul (DotDims.plain m k n) prec A B (constant ⟨2, ![m, n]⟩ .f32 0x00000000#32) j
      = Host.dotGeneral (DotDims.plain m k n) prec A B j := by
  refine (Ideal.matmul_constant_zero_apply (DotDims.plain m k n) prec A B j).trans ?_
  show _ = FloatOps.dotGeneral _ prec _ A B j
  rw [Ideal.dotGeneral_apply]

/-- The matrix unit's plain product into the zero splat at (a, b): the sum over the contracted coordinate. -/
theorem matmul_plain_apply {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (matmul_plain_eq_dotGeneral prec A B (ix2 a b)).trans (StackMember.dotGeneral_plain_apply prec A B a b)

/-- The host's plain product at (a, b): the same sum. -/
theorem dotGeneral_plain_apply {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end DenseLayers

end
-- ==== Proof.Region0.lean ====
/-
  The first layer's region, read as a whole array.

  The region sweeps ten row blocks of 10000 nodes. At each block the body multiplies the block's aggregated
  features and its own features by the two 1×32 weight matrices, adds the bias row, keeps the larger of that and
  zero, and writes the 10000×32 block back. Row p of block t is row 10000 t + p of the arrays, the weights and the
  bias are the same at every block, and the ten blocks tile the 100000 rows: so the output array ends at the hidden
  layer of the arrays as the region finds them, entry by entry.
-/
import proofs.«182023_j31988916420723_1_alg».proof.Proof.Gen.KernelIdeal.Frame
import proofs.«182023_j31988916420723_1_alg».proof.Proof.SageSpec
import proofs.«182023_j31988916420723_1_alg».proof.Proof.LibDenseLayers
import Idealize.ShloMosaic.Lib.Pipeline.Value
import Idealize.ShloMosaic.Lib.ValueIdx
import Idealize.ShloMosaic.Lib.ValueLayout

set_option maxRecDepth 16384
noncomputable section
namespace Cert.KernelIdeal.Region0
open Cert.KernelIdeal Cert.KernelIdeal.Gen Idealize.ShloMosaic Idealize.ShloMosaic.TcCoe Idealize.ShloMosaic.ValueIdx Idealize.SL.Sem

/-- The matrix unit's dimension record of this kernel is the plain product of a 10000×1 block by a 1×32 matrix. -/
theorem dot_plain : dot_S10000x1_S1x32_S10000x32_1_0_0_1_n_n = DotDims.plain 10000 1 32 := rfl

/-- The body's stored value at (p, q): the larger of zero and the two dense products of row p plus the bias row's entry q. -/
theorem payload_apply (x0 x1 : Vec Ideal S10000x1 .f32) (x2 x3 x4 : Vec Ideal S1x32 .f32) (p : Fin 10000) (q : Fin 32) :
    Gen.k0_pay1 x0 x1 x2 x3 x4 (ix2 p q)
      = max ((Sage.dense x0 x2 p q + Sage.dense x1 x3 p q) + x4 (ix2 (0 : Fin 1) q)) 0 := by
  unfold Gen.k0_pay1
  simp only [shapeCast_self, dot_plain]
  rw [truncf_apply, maximumf_apply, addf_apply, addf_apply, DenseLayers.matmul_plain_apply,
    DenseLayers.matmul_plain_apply, broadcastTo_1b_ab_apply, broadcast_apply]
  exact congrArg (max _) Ideal.ofBits_zero_f32

variable (V : (c : Dev nD) → (b : Ref sig .tc) → Buf (Elt Ideal) ((c : Thread nD τ).loc b))

/-- The zero offsets of a whole-block access, spelt as a function. -/
theorem zero_offsets : (![0, 0] : Fin 2 → Nat) = fun _ => 0 := funext fun a => by fin_cases a <;> rfl

/-- The block indices over the grid: the two feature windows and the output sit at row block t, column block 0;
    the two weight matrices and the bias row sit at block (0, 0) at every point. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregated-feature block at point t is row 10000 t + p of the array. -/
theorem meanBlock_apply (c : Dev nD) (t : Fin cfg0.N) (p : Fin 10000) (u : Fin 1) (r : Fin 100000)
    (hr : r.val = t.val * 10000 + p.val) :
    (iblk0 V c 0 t : Vec Ideal S10000x1 .f32) (ix2 p u) = (V c main_v23 : S100000x1.Idx → EReal) (ix2 r u) := by
  obtain ⟨e0, e1, -⟩ := index_facts t
  unfold iblk0
  rw [View.read_apply]
  show V c main_v23 _ = V c main_v23 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 1 + 1 * u.val = u.val; rw [e1]; omega

/-- Row p of the node-feature block at point t is row 10000 t + p of the array. -/
theorem selfBlock_apply (c : Dev nD) (t : Fin cfg0.N) (p : Fin 10000) (u : Fin 1) (r : Fin 100000)
    (hr : r.val = t.val * 10000 + p.val) :
    (iblk0 V c 1 t : Vec Ideal S10000x1 .f32) (ix2 p u) = (V c main_arg0 : S100000x1.Idx → EReal) (ix2 r u) := by
  obtain ⟨-, -, e0, e1, -⟩ := index_facts t
  unfold iblk0
  rw [View.read_apply]
  show V c main_arg0 _ = V c main_arg0 _
  congr 1
  funext a
  apply Fin.ext
  match a with
  | ⟨0, _⟩ => show win0_1.index t (0 : Fin 2) * 10000 + 1 * p.val = r.val; rw [e0, hr]; omega
  | ⟨1, _⟩ => show win0_1.index t (1 : Fin 2) * 1 + 1 * u.val = u.val; rw [e1]; omega

/-- The neighbours' weight matrix is staged whole at every point. -/
theorem weightL_apply (c : Dev nD) (t : Fin cfg0.N) (u : Fin 1) (q : Fin 32) :
    (iblk0 V c 2 t : Vec Ideal S1x32 .f32) (ix2 u q) = (V c main_v24 : S1x32.Idx → EReal) (ix2 u q) := by
  obtain ⟨-, -, -, -, e0, e1, -⟩ := index_facts t
  unfold iblk0
  rw [View.read_apply]
  show V c main_v24 _ = V c main_v24 _
  congr 1
  funext a
  apply Fin.ext
  match a with
  | ⟨0, _⟩ => show win0_2.index t (0 : Fin 2) * 1 + 1 * u.val = u.val; rw [e0]; omega
  | ⟨1, _⟩ => show win0_2.index t (1 : Fin 2) * 32 + 1 * q.val = q.val; rw [e1]; omega

/-- The node's own weight matrix is staged whole at every point. -/
theorem weightR_apply (c : Dev nD) (t : Fin cfg0.N) (u : Fin 1) (q : Fin 32) :
    (iblk0 V c 3 t : Vec Ideal S1x32 .f32) (ix2 u q) = (V c main_v25 : S1x32.Idx → EReal) (ix2 u q) := by
  obtain ⟨-, -, -, -, -, -, e0, e1, -⟩ := index_facts t
  unfold iblk0
  rw [View.read_apply]
  show V c main_v25 _ = V c main_v25 _
  congr 1
  funext a
  apply Fin.ext
  match a with
  | ⟨0, _⟩ => show win0_3.index t (0 : Fin 2) * 1 + 1 * u.val = u.val; rw [e0]; omega
  | ⟨1, _⟩ => show win0_3.index t (1 : Fin 2) * 32 + 1 * q.val = q.val; rw [e1]; omega

/-- The bias row is staged whole at every point. -/
theorem biasBlock_apply (c : Dev nD) (t : Fin cfg0.N) (u : Fin 1) (q : Fin 32) :
    (iblk0 V c 4 t : Vec Ideal S1x32 .f32) (ix2 u q) = (V c main_v26 : S1x32.Idx → EReal) (ix2 u q) := by
  obtain ⟨-, -, -, -, -, -, -, -, e0, e1, -⟩ := index_facts t
  unfold iblk0
  rw [View.read_apply]
  show V c main_v26 _ = V c main_v26 _
  congr 1
  funext a
  apply Fin.ext
  match a with
  | ⟨0, _⟩ => show win0_4.index t (0 : Fin 2) * 1 + 1 * u.val = u.val; rw [e0]; omega
  | ⟨1, _⟩ => show win0_4.index t (1 : Fin 2) * 32 + 1 * q.val = q.val; rw [e1]; omega

/-- Entry (p, q) of the output block at point t is entry (10000 t + p, q) of the output array. -/
theorem outBlock_emb (t : Fin cfg0.N) (p : Fin 10000) (q : Fin 32) (r : Fin 100000)
    (hr : r.val = t.val * 10000 + p.val) :
    (((cfg0.win 5).blk t).view.emb (ix2 p q : S10000x32.Idx) : S100000x32.Idx) = ix2 r q := by
  obtain ⟨-, -, -, -, -, -, -, -, -, -, e0, e1⟩ := index_facts t
  funext a
  apply Fin.ext
  match a with
  | ⟨0, _⟩ => show win0_5.index t (0 : Fin 2) * 10000 + 1 * p.val = r.val; rw [e0, hr]; omega
  | ⟨1, _⟩ => show win0_5.index t (1 : Fin 2) * 32 + 1 * q.val = q.val; rw [e1]; omega

/-- Two dense products agree at a pair of rows when the rows and the weights agree entry by entry. -/
theorem dense_congr {M M' K N : ℕ} (x : (⟨2, ![M, K]⟩ : Shape).Idx → EReal) (x' : (⟨2, ![M', K]⟩ : Shape).Idx → EReal)
    (w w' : (⟨2, ![K, N]⟩ : Shape).Idx → EReal) (r : Fin M) (r' : Fin M') (j : Fin N)
    (hx : ∀ k, x (ix2 r k) = x' (ix2 r' k)) (hw : ∀ k, w (ix2 k j) = w' (ix2 k j)) :
    Sage.dense x w r j = Sage.dense x' w' r' j :=
  Finset.sum_congr rfl fun k _ => by rw [hx k, hw k]

/-- What point t writes back is row block t of the hidden layer of the arrays as the region finds them. -/
theorem flushed_eq (c : Dev nD) (t : Fin cfg0.N) :
    (dat0 (F := Ideal) V c).flushed 5 t = ((cfg0.win 5).blk t).view.read (Elt Ideal)
      (Sage.hidden (V c main_v23) (V c main_arg0) (V c main_v24) (V c main_v25) (V c main_v26)) := by
  show (cfg0.win 5).cut (grid0.coords t) ((dat0 (F := Ideal) V c).after 5 t) = _
  rw [after0_5]
  unfold out0_5
  rw [View.canon_unit_zero zero_offsets]
  simp only [View.ld_unit_zero (S := S10000x1) zero_offsets, View.ld_unit_zero (S := S1x32) zero_offsets]
  funext j
  revert j
  show ∀ j : S10000x32.Idx, k0_pay1 (iblk0 V c 0 t) (iblk0 V c 1 t) (iblk0 V c 2 t) (iblk0 V c 3 t) (iblk0 V c 4 t) j
    = Sage.hidden (V c main_v23) (V c main_arg0) (V c main_v24) (V c main_v25) (V c main_v26) (((cfg0.win 5).blk t).view.emb j)
  intro j
  obtain ⟨p, q, rfl⟩ : ∃ (p : Fin 10000) (q : Fin 32), j = ix2 p q := ⟨j 0, j 1, eq_ix2 j⟩
  have hN : cfg0.N = 10 := N_0
  have hr : (⟨t.val * 10000 + p.val, by have := t.isLt; have := p.isLt; omega⟩ : Fin 100000).val = t.val * 10000 + p.val := rfl
  refine (payload_apply _ _ _ _ _ p q).trans ?_
  rw [outBlock_emb t p q _ hr, Sage.hidden_apply,
    dense_congr _ _ _ _ p _ q (fun k => meanBlock_apply V c t p k _ hr) (fun k => weightL_apply V c t k q),
    dense_congr _ _ _ _ p _ q (fun k => selfBlock_apply V c t p k _ hr) (fun k => weightR_apply V c t k q),
    biasBlock_apply V c t 0 q]

/-- An index of the output array is in point t's block iff each coordinate is in the block's range on its axis. -/
theorem mem_outBlock (t : Fin cfg0.N) (i : S100000x32.Idx) :
    i ∈ ((cfg0.win 5).blk t).view.set ↔ ∀ a : Fin 2, win0_5.index t a * S10000x32.size a ≤ (i a).val ∧ (i a).val < win0_5.index t a * S10000x32.size a + S10000x32.size a := by
  show i ∈ ((View.whole main_v27).slice (win0_5.rect t)).set ↔ _
  rw [View.set_slice_whole, Rect.mem_set_unit]
  exact Iff.rfl

/-- Every row of the output array lies in one row block: row r in the block of point r / 10000. -/
theorem rows_covered (i : S100000x32.Idx) :
    ∃ t : Fin cfg0.N, (cfg0.win 5).flush t = true ∧ i ∈ ((cfg0.win 5).blk t).view.set := by
  have hN : cfg0.N = 10 := N_0
  have hi0 : (i 0).val < 100000 := (i 0).isLt
  have hi1 : (i 1).val < 32 := (i 1).isLt
  refine ⟨⟨(i 0).val / 10000, by omega⟩, flush0_5 _, ?_⟩
  rw [mem_outBlock]
  obtain ⟨-, -, -, -, -, -, -, -, -, -, e0, e1⟩ := index_facts ⟨(i 0).val / 10000, by omega⟩
  intro a
  match a with
  | ⟨0, _⟩ =>
    show win0_5.index _ (0 : Fin 2) * 10000 ≤ (i 0).val ∧ (i 0).val < win0_5.index _ (0 : Fin 2) * 10000 + 10000
    rw [e0]; show (i 0).val / 10000 * 10000 ≤ (i 0).val ∧ (i 0).val < (i 0).val / 10000 * 10000 + 10000; omega
  | ⟨1, _⟩ =>
    show win0_5.index _ (1 : Fin 2) * 32 ≤ (i 1).val ∧ (i 1).val < win0_5.index _ (1 : Fin 2) * 32 + 32
    rw [e1]; omega

/-- The output array after the region is the hidden layer of the arrays as the region finds them. -/
theorem final0 (c : Dev nD) :
    (dat0 (F := Ideal) V c).arrAt 5 cfg0.N
      = Sage.hidden (V c main_v23) (V c main_arg0) (V c main_v24) (V c main_v25) (V c main_v26) :=
  (dat0 (F := Ideal) V c).arrAt_eq_of_cover 5 _ (fun t _ => flushed_eq V c t) rows_covered

end Cert.KernelIdeal.Region0
end
-- ==== Proof.Region1.lean ====
/-
  The second layer's region, read as one function of the arrays it finds.

  The grid has ten points; point t stages rows 10000 t … 10000 t + 9999 of the neighbours' mean and of the nodes'
  own features, and the whole of the two hidden weight matrices, the hidden bias row, the readout weights and the
  readout bias. The body forms, for its block of rows, the readout of the hidden layer; every stage reads row r of
  its matrix operands only, so block t of the result is block t of the readout of the hidden layer of the whole
  arrays, and the ten blocks tile the result array.
-/
import proofs.«182023_j31988916420723_1_alg».proof.Proof.Gen.KernelIdeal.Frame
import proofs.«182023_j31988916420723_1_alg».proof.Proof.SageSpec
import proofs.«182023_j31988916420723_1_alg».proof.Proof.LibDenseLayers
import Idealize.ShloMosaic.Lib.Pipeline.Value
import Idealize.ShloMosaic.Lib.ValueIdx
import Idealize.ShloMosaic.Lib.ValueLayout

set_option maxRecDepth 16384
noncomputable section
namespace Cert.KernelIdeal.Region1
open Cert.KernelIdeal Cert.KernelIdeal.Gen Idealize.ShloMosaic Idealize.ShloMosaic.TcCoe Idealize.ShloMosaic.ValueIdx Idealize.SL.Sem

/-- The printed contraction records are the plain products: rows by columns over one contracted coordinate. -/
theorem dotHidden_plain : dot_S10000x32_S32x16_S10000x16_1_0_0_1_n_n = DotDims.plain 10000 32 16 := rfl
theorem dotReadout_plain : dot_S10000x16_S16x1_S10000x1_1_0_0_1_n_n = DotDims.plain 10000 16 1 := rfl

/-- The body's result for a block of 10000 rows, entry by entry: the readout of the hidden layer of the block's rows.
    The narrowing casts and the same-shape casts are identities on the extended reals; each product into the zero
    accumulator is the sum over the contracted coordinate; each bias is one row read at every row; the zero the
    hidden layer is compared with is the zero word. -/
theorem pay_apply (x0 : Vec Ideal S10000x32 .f32) (x1 : Vec Ideal S10000x32 .bf16) (x2 x3 : Vec Ideal S32x16 .f32)
    (x4 : Vec Ideal S1x16 .f32) (x5 : Vec Ideal S16x1 .f32) (x6 : Vec Ideal S1x1 .f32) (p : Fin 10000) (q : Fin 1) :
    k1_pay1 (F := Ideal) x0 x1 x2 x3 x4 x5 x6 (ix2 p q)
      = Sage.readout (Sage.hidden x0 x1 x2 x3 x4) x5 x6 (ix2 p q) := by
  unfold k1_pay1
  rw [Sage.readout_apply, addf_apply]
  refine congrArg₂ (· + ·) ?_ ?_
  · rw [dotReadout_plain]
    refine (DenseLayers.matmul_plain_apply none _ _ p q).trans ?_
    unfold Sage.dense
    refine Finset.sum_congr rfl fun c _ => ?_
    refine congrArg₂ (· * ·) ?_ ?_
    · rw [truncf_apply, maximumf_apply, addf_apply, addf_apply, broadcast_apply, Sage.hidden_apply, dotHidden_plain]
      refine congrArg₂ max (congrArg₂ (· + ·) (congrArg₂ (· + ·) ?_ ?_) ?_) Ideal.ofBits_zero_f32
      · refine (DenseLayers.matmul_plain_apply none _ _ p c).trans ?_
        unfold Sage.dense
        refine Finset.sum_congr rfl fun d _ => ?_
        rw [truncf_apply, truncf_apply, shapeCast_self, shapeCast_self]
      · refine (DenseLayers.matmul_plain_apply none _ _ p c).trans ?_
        unfold Sage.dense
        refine Finset.sum_congr rfl fun d _ => ?_
        rw [truncf_apply, shapeCast_self, shapeCast_self]
      · rw [shapeCast_self]
        exact broadcastTo_1b_ab_apply _ _ p c
    · rw [truncf_apply, shapeCast_self]
  · rw [shapeCast_self]
    exact broadcastTo_1b_ab_apply _ _ p q

theorem zeroOffsets : (![0, 0] : Fin 2 → Nat) = fun _ => 0 := funext fun a => by fin_cases a <;> rfl

/-- Row r of the readout of the hidden layer reads row r of the two feature matrices only: two pairs of feature
    matrices that agree on a row, with the same weights and biases, give the same entries on that row. -/
theorem readout_hidden_row {Mb M K H N : ℕ}
    (b0 b1 : (⟨2, ![Mb, K]⟩ : Shape).Idx → EReal) (a0 a1 : (⟨2, ![M, K]⟩ : Shape).Idx → EReal)
    (wl' wr' wl wr : (⟨2, ![K, H]⟩ : Shape).Idx → EReal) (bh' bh : (⟨2, ![1, H]⟩ : Shape).Idx → EReal)
    (wo' wo : (⟨2, ![H, N]⟩ : Shape).Idx → EReal) (bo' bo : (⟨2, ![1, N]⟩ : Shape).Idx → EReal)
    (p : Fin Mb) (r : Fin M) (q : Fin N)
    (h0 : ∀ k, b0 (ix2 p k) = a0 (ix2 r k)) (h1 : ∀ k, b1 (ix2 p k) = a1 (ix2 r k))
    (hwl : wl' = wl) (hwr : wr' = wr) (hbh : bh' = bh) (hwo : wo' = wo) (hbo : bo' = bo) :
    Sage.readout (Sage.hidden b0 b1 wl' wr' bh') wo' bo' (ix2 p q)
      = Sage.readout (Sage.hidden a0 a1 wl wr bh) wo bo (ix2 r q) := by
  subst hwl hwr hbh hwo hbo
  simp only [Sage.readout_apply, Sage.hidden_apply, Sage.dense, h0, h1]

/-- The printed index maps over the grid: the two feature windows and the output sit at row block t, the weight and
    bias windows at block (0, 0). -/
theorem blockIndices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- Window 0's block at point t, row p, is row t · 10000 + p of the neighbours' mean. -/
theorem meanBlock_apply (c : Dev nD) (t : Fin cfg1.N) (p : Fin 10000) (k : Fin 32) (r : Fin 100000)
    (hr : r.val = t.val * 10000 + p.val) :
    (iblk1 V c 0 t : Vec Ideal S10000x32 .f32) (ix2 p k) = (V c main_v40 : S100000x32.Idx → EReal) (ix2 r k) := by
  obtain ⟨e0, e1, -⟩ := blockIndices t
  unfold iblk1
  show V c main_v40 (((cfg1.win 0).blk t).view.emb (ix2 p k)) = V c main_v40 (ix2 r k)
  refine congrArg (V c main_v40) (funext fun a => Fin.ext ?_)
  match a with
  | ⟨0, _⟩ => show win1_0.index t (0 : Fin 2) * 10000 + 1 * p.val = r.val; rw [e0, hr]; omega
  | ⟨1, _⟩ => show win1_0.index t (1 : Fin 2) * 32 + 1 * k.val = k.val; rw [e1]; omega

/-- Window 1's block at point t, row p, is row t · 10000 + p of the nodes' own features. -/
theorem selfBlock_apply (c : Dev nD) (t : Fin cfg1.N) (p : Fin 10000) (k : Fin 32) (r : Fin 100000)
    (hr : r.val = t.val * 10000 + p.val) :
    (iblk1 V c 1 t : Vec Ideal S10000x32 .bf16) (ix2 p k) = (V c main_v27 : S100000x32.Idx → EReal) (ix2 r k) := by
  obtain ⟨-, -, e0, e1, -⟩ := blockIndices t
  unfold iblk1
  show V c main_v27 (((cfg1.win 1).blk t).view.emb (ix2 p k)) = V c main_v27 (ix2 r k)
  refine congrArg (V c main_v27) (funext fun a => Fin.ext ?_)
  match a with
  | ⟨0, _⟩ => show win1_1.index t (0 : Fin 2) * 10000 + 1 * p.val = r.val; rw [e0, hr]; omega
  | ⟨1, _⟩ => show win1_1.index t (1 : Fin 2) * 32 + 1 * k.val = k.val; rw [e1]; omega

/-- The left weight matrix's window holds the whole matrix at every point. -/
theorem wlBlock (c : Dev nD) (t : Fin cfg1.N) :
    (iblk1 V c 2 t : Vec Ideal S32x16 .f32) = (V c main_v41 : S32x16.Idx → EReal) := by
  obtain ⟨-, -, -, -, e0, e1, -⟩ := blockIndices t
  unfold iblk1
  funext j
  show V c main_v41 (((cfg1.win 2).blk t).view.emb j) = V c main_v41 j
  refine congrArg (V c main_v41) (funext fun a => Fin.ext ?_)
  match a with
  | ⟨0, _⟩ => show win1_2.index t (0 : Fin 2) * 32 + 1 * (j 0).val = (j 0).val; rw [e0]; omega
  | ⟨1, _⟩ => show win1_2.index t (1 : Fin 2) * 16 + 1 * (j 1).val = (j 1).val; rw [e1]; omega

/-- The right weight matrix's window holds the whole matrix at every point. -/
theorem wrBlock (c : Dev nD) (t : Fin cfg1.N) :
    (iblk1 V c 3 t : Vec Ideal S32x16 .f32) = (V c main_v42 : S32x16.Idx → EReal) := by
  obtain ⟨-, -, -, -, -, -, e0, e1, -⟩ := blockIndices t
  unfold iblk1
  funext j
  show V c main_v42 (((cfg1.win 3).blk t).view.emb j) = V c main_v42 j
  refine congrArg (V c main_v42) (funext fun a => Fin.ext ?_)
  match a with
  | ⟨0, _⟩ => show win1_3.index t (0 : Fin 2) * 32 + 1 * (j 0).val = (j 0).val; rw [e0]; omega
  | ⟨1, _⟩ => show win1_3.index t (1 : Fin 2) * 16 + 1 * (j 1).val = (j 1).val; rw [e1]; omega

/-- The hidden bias row's window holds the whole row at every point. -/
theorem hiddenBiasBlock (c : Dev nD) (t : Fin cfg1.N) :
    (iblk1 V c 4 t : Vec Ideal S1x16 .f32) = (V c main_v43 : S1x16.Idx → EReal) := by
  obtain ⟨-, -, -, -, -, -, -, -, e0, e1, -⟩ := blockIndices t
  unfold iblk1
  funext j
  show V c main_v43 (((cfg1.win 4).blk t).view.emb j) = V c main_v43 j
  refine congrArg (V c main_v43) (funext fun a => Fin.ext ?_)
  match a with
  | ⟨0, _⟩ => show win1_4.index t (0 : Fin 2) * 1 + 1 * (j 0).val = (j 0).val; rw [e0]; omega
  | ⟨1, _⟩ => show win1_4.index t (1 : Fin 2) * 16 + 1 * (j 1).val = (j 1).val; rw [e1]; omega

/-- The readout weights' window holds the whole column at every point. -/
theorem readoutWeightBlock (c : Dev nD) (t : Fin cfg1.N) :
    (iblk1 V c 5 t : Vec Ideal S16x1 .f32) = (V c main_v44 : S16x1.Idx → EReal) := by
  obtain ⟨-, -, -, -, -, -, -, -, -, -, e0, e1, -⟩ := blockIndices t
  unfold iblk1
  funext j
  show V c main_v44 (((cfg1.win 5).blk t).view.emb j) = V c main_v44 j
  refine congrArg (V c main_v44) (funext fun a => Fin.ext ?_)
  match a with
  | ⟨0, _⟩ => show win1_5.index t (0 : Fin 2) * 16 + 1 * (j 0).val = (j 0).val; rw [e0]; omega
  | ⟨1, _⟩ => show win1_5.index t (1 : Fin 2) * 1 + 1 * (j 1).val = (j 1).val; rw [e1]; omega

/-- The readout bias's window holds the one entry at every point. -/
theorem readoutBiasBlock (c : Dev nD) (t : Fin cfg1.N) :
    (iblk1 V c 6 t : Vec Ideal S1x1 .f32) = (V c main_v45 : S1x1.Idx → EReal) := by
  obtain ⟨-, -, -, -, -, -, -, -, -, -, -, -, e0, e1, -⟩ := blockIndices t
  unfold iblk1
  funext j
  show V c main_v45 (((cfg1.win 6).blk t).view.emb j) = V c main_v45 j
  refine congrArg (V c main_v45) (funext fun a => Fin.ext ?_)
  match a with
  | ⟨0, _⟩ => show win1_6.index t (0 : Fin 2) * 1 + 1 * (j 0).val = (j 0).val; rw [e0]; omega
  | ⟨1, _⟩ => show win1_6.index t (1 : Fin 2) * 1 + 1 * (j 1).val = (j 1).val; rw [e1]; omega

/-- The output block at point t, row p, is row t · 10000 + p of the result array. -/
theorem outBlock_emb (t : Fin cfg1.N) (p : Fin 10000) (q : Fin 1) (r : Fin 100000)
    (hr : r.val = t.val * 10000 + p.val) :
    (((cfg1.win 7).blk t).view.emb (ix2 p q) : S100000x1.Idx) = ix2 r q := by
  obtain ⟨-, -, -, -, -, -, -, -, -, -, -, -, -, -, e0, e1⟩ := blockIndices t
  refine funext fun a => Fin.ext ?_
  match a with
  | ⟨0, _⟩ => show win1_7.index t (0 : Fin 2) * 10000 + 1 * p.val = r.val; rw [e0, hr]; omega
  | ⟨1, _⟩ => show win1_7.index t (1 : Fin 2) * 1 + 1 * q.val = q.val; rw [e1]; omega

/-- What point t writes back is block t of the readout of the hidden layer of the arrays the region finds. -/
theorem flushed_eq (c : Dev nD) (t : Fin cfg1.N) :
    (dat1 (F := Ideal) V c).flushed 7 t = ((cfg1.win 7).blk t).view.read (Elt Ideal)
      (Sage.readout (Sage.hidden (V c main_v40) (V c main_v27) (V c main_v41) (V c main_v42) (V c main_v43))
        (V c main_v44) (V c main_v45)) := by
  show (cfg1.win 7).cut (cfg1.grid.coords t) ((dat1 V c).after 7 t) = _
  rw [after1_7]
  unfold out1_7
  rw [View.canon_unit_zero zeroOffsets]
  simp only [View.ld_unit_zero (S := S10000x32) zeroOffsets, View.ld_unit_zero (S := S32x16) zeroOffsets,
    View.ld_unit_zero (S := S1x16) zeroOffsets, View.ld_unit_zero (S := S16x1) zeroOffsets,
    View.ld_unit_zero (S := S1x1) zeroOffsets]
  funext j
  obtain ⟨p, q, rfl⟩ : ∃ (p : Fin 10000) (q : Fin 1), j = ix2 p q := ⟨j 0, j 1, eq_ix2 j⟩
  have ht : t.val < 10 := lt_of_lt_of_eq t.isLt N_1
  have hr : (⟨t.val * 10000 + p.val, by have := p.isLt; omega⟩ : Fin 100000).val = t.val * 10000 + p.val := rfl
  show k1_pay1 (F := Ideal) (iblk1 V c 0 t) (iblk1 V c 1 t) (iblk1 V c 2 t) (iblk1 V c 3 t) (iblk1 V c 4 t)
      (iblk1 V c 5 t) (iblk1 V c 6 t) (ix2 p q)
    = Sage.readout (Sage.hidden (V c main_v40) (V c main_v27) (V c main_v41) (V c main_v42) (V c main_v43))
        (V c main_v44) (V c main_v45) (((cfg1.win 7).blk t).view.emb (ix2 p q))
  refine (pay_apply (iblk1 V c 0 t) (iblk1 V c 1 t) (iblk1 V c 2 t) (iblk1 V c 3 t) (iblk1 V c 4 t)
    (iblk1 V c 5 t) (iblk1 V c 6 t) p q).trans ?_
  rw [outBlock_emb t p q _ hr]
  exact readout_hidden_row _ _ _ _ _ _ _ _ _ _ _ _ _ _ p _ q
    (fun k => meanBlock_apply V c t p k _ hr) (fun k => selfBlock_apply V c t p k _ hr)
    (wlBlock V c t) (wrBlock V c t) (hiddenBiasBlock V c t) (readoutWeightBlock V c t) (readoutBiasBlock V c t)

/-- An index of the result array is in point t's block iff each coordinate is in the block's range on its axis. -/
theorem mem_outBlock (t : Fin cfg1.N) (i : S100000x1.Idx) :
    i ∈ ((cfg1.win 7).blk t).view.set ↔ ∀ a : Fin 2, win1_7.index t a * S10000x1.size a ≤ (i a).val
      ∧ (i a).val < win1_7.index t a * S10000x1.size a + S10000x1.size a := by
  show i ∈ ((View.whole main_v46).slice (win1_7.rect t)).set ↔ _
  rw [View.set_slice_whole, Rect.mem_set_unit]
  exact Iff.rfl

/-- Every row of the result array is in some point's block: row r in that of point r / 10000, which writes back. -/
theorem rows_covered (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, -, -, -, -, -, -, -, -, e0, e1⟩ := blockIndices t
  refine ⟨t, flush1_7 t, ?_⟩
  rw [mem_outBlock]
  intro a
  match a with
  | ⟨0, _⟩ =>
    show win1_7.index t (0 : Fin 2) * 10000 ≤ (i 0).val ∧ (i 0).val < win1_7.index t (0 : Fin 2) * 10000 + 10000
    rw [e0, ht]; omega
  | ⟨1, _⟩ =>
    show win1_7.index t (1 : Fin 2) * 1 ≤ (i 1).val ∧ (i 1).val < win1_7.index t (1 : Fin 2) * 1 + 1
    rw [e1]; omega

/-- The result array after the region: the readout of the hidden layer of the arrays the region finds. -/
theorem final1 (c : Dev nD) :
    (dat1 (F := Ideal) V c).arrAt 7 cfg1.N
      = Sage.readout (Sage.hidden (V c main_v40) (V c main_v27) (V c main_v41) (V c main_v42) (V c main_v43))
          (V c main_v44) (V c main_v45) :=
  (dat1 (F := Ideal) V c).arrAt_eq_of_cover 7 _ (fun t _ => flushed_eq V c t) rows_covered

end Cert.KernelIdeal.Region1

end
-- ==== Proof.RefValue.lean ====
/-
  The reference program's value in the specification's form: each of its two hidden layers is the specification's
  hidden layer of a neighbour mean, and its result is the specification's readout of the second hidden layer. The
  neighbour means are not opened. The reference adds the bias row before the second product and the specification
  after it; the sum of three extended reals does not depend on that order.
-/
import proofs.«182023_j31988916420723_1_alg».proof.Proof.Gen.ReferenceIdeal.Read
import proofs.«182023_j31988916420723_1_alg».proof.Proof.SageSpec
import Idealize.ShloMosaic.Lib.ValueIdx

set_option maxRecDepth 16384
noncomputable section
namespace Cert.ReferenceIdeal.RefValue
open Cert.ReferenceIdeal Cert.ReferenceIdeal.Gen Cert.ReferenceIdeal.Read Idealize.ShloMosaic Idealize.ShloMosaic.TcCoe Idealize.ShloMosaic.ValueIdx Idealize.SL.Sem

variable (x0 : (⟨S100000x1, .f32⟩ : BufTy).Contents (Elt Ideal)) (x1 : (⟨S2x2500000, .i32⟩ : BufTy).Contents (Elt Ideal))
  (x3 : (⟨S32x1, .f32⟩ : BufTy).Contents (Elt Ideal)) (x4 : (⟨S32, .f32⟩ : BufTy).Contents (Elt Ideal))
  (x5 : (⟨S32x1, .f32⟩ : BufTy).Contents (Elt Ideal)) (x6 : (⟨S16x32, .f32⟩ : BufTy).Contents (Elt Ideal))
  (x7 : (⟨S16, .f32⟩ : BufTy).Contents (Elt Ideal)) (x8 : (⟨S16x32, .f32⟩ : BufTy).Contents (Elt Ideal))
  (x9 : (⟨S1x16, .f32⟩ : BufTy).Contents (Elt Ideal)) (x10 : (⟨S1, .f32⟩ : BufTy).Contents (Elt Ideal))

/-! Index identities of the first layer: the composed indices of the two products and of the bias row,
    read at the entry (r, j). -/

theorem lidx23 (r : Fin 100000) (j : Fin 32) (k : Fin 1) : lidx_main_v23 (ix2 r j) k = ix2 r k :=
  funext fun a => Fin.ext (by match a with | ⟨0, _⟩ => rfl | ⟨1, _⟩ => rfl)

theorem ridx23 (r : Fin 100000) (j : Fin 32) (k : Fin 1) : ridx_main_v23 (ix2 r j) k = ix2 k j :=
  funext fun a => Fin.ext (by match a with | ⟨0, _⟩ => rfl | ⟨1, _⟩ => rfl)

theorem lidx28 (r : Fin 100000) (j : Fin 32) (k : Fin 1) : lidx_main_v28 (ix2 r j) k = ix2 r k :=
  funext fun a => Fin.ext (by match a with | ⟨0, _⟩ => rfl | ⟨1, _⟩ => rfl)

theorem ridx28 (r : Fin 100000) (j : Fin 32) (k : Fin 1) : ridx_main_v28 (ix2 r j) k = ix2 k j :=
  funext fun a => Fin.ext (by match a with | ⟨0, _⟩ => rfl | ⟨1, _⟩ => rfl)

theorem idx25 (r : Fin 100000) (j : Fin 32) : idx_main_v25 (ix2 r j) = ix2 (0 : Fin 1) j :=
  funext fun a => Fin.ext (by match a with | ⟨0, _⟩ => rfl | ⟨1, _⟩ => rfl)

/-- The first hidden layer of the reference is the specification's hidden layer of its neighbour mean, the node
    features, the two transposed weight matrices and the bias row. -/
theorem h1_eq : val_main_v30 x0 x1 x3 x4 x5
    = Sage.hidden (val_main_v21 x0 x1) x0 (val_main_v22 x3) (val_main_v27 x5) (val_main_v24 x4) := by
  funext i
  obtain ⟨r, j, rfl⟩ : ∃ (r : Fin 100000) (j : Fin 32), i = ix2 r j := ⟨i 0, i 1, eq_ix2 i⟩
  rw [Sage.hidden_apply, val_main_v30_apply, val_main_v29_apply, val_main_v26_apply, val_main_v23_apply,
    val_main_v28_apply, val_main_v25_apply, val_main_call0_v0_apply, val_main_call0_cst_apply]
  simp only [lidx23, ridx23, lidx28, ridx28, idx25]
  rw [Ideal.maximumf_def, Ideal.addf_def, Ideal.addf_def]
  unfold Sage.dense
  exact congrArg₂ max (Sage.add_swap _ _ _) Ideal.ofBits_zero_f32

/-! Index identities of the second layer, read at the entry (r, j) of a matrix with 16 columns. -/

theorem lidx55 (r : Fin 100000) (j : Fin 16) (k : Fin 32) : lidx_main_v55 (ix2 r j) k = ix2 r k :=
  funext fun a => Fin.ext (by match a with | ⟨0, _⟩ => rfl | ⟨1, _⟩ => rfl)

theorem ridx55 (r : Fin 100000) (j : Fin 16) (k : Fin 32) : ridx_main_v55 (ix2 r j) k = ix2 k j :=
  funext fun a => Fin.ext (by match a with | ⟨0, _⟩ => rfl | ⟨1, _⟩ => rfl)

theorem lidx60 (r : Fin 100000) (j : Fin 16) (k : Fin 32) : lidx_main_v60 (ix2 r j) k = ix2 r k :=
  funext fun a => Fin.ext (by match a with | ⟨0, _⟩ => rfl | ⟨1, _⟩ => rfl)

theorem ridx60 (r : Fin 100000) (j : Fin 16) (k : Fin 32) : ridx_main_v60 (ix2 r j) k = ix2 k j :=
  funext fun a => Fin.ext (by match a with | ⟨0, _⟩ => rfl | ⟨1, _⟩ => rfl)

theorem idx57 (r : Fin 100000) (j : Fin 16) : idx_main_v57 (ix2 r j) = ix2 (0 : Fin 1) j :=
  funext fun a => Fin.ext (by match a with | ⟨0, _⟩ => rfl | ⟨1, _⟩ => rfl)

/-- The second hidden layer of the reference is the specification's hidden layer of its neighbour mean, the first
    hidden layer, the two transposed weight matrices and the bias row. -/
theorem h2_eq : val_main_v62 x0 x1 x3 x4 x5 x6 x7 x8
    = Sage.hidden (val_main_v53 x0 x1 x3 x4 x5) (val_main_v30 x0 x1 x3 x4 x5) (val_main_v54 x6) (val_main_v59 x8)
        (val_main_v56 x7) := by
  funext i
  obtain ⟨r, j, rfl⟩ : ∃ (r : Fin 100000) (j : Fin 16), i = ix2 r j := ⟨i 0, i 1, eq_ix2 i⟩
  rw [Sage.hidden_apply, val_main_v62_apply, val_main_v61_apply, val_main_v58_apply, val_main_v55_apply,
    val_main_v60_apply, val_main_v57_apply, val_main_call1_v0_apply, val_main_call1_cst_apply]
  simp only [lidx55, ridx55, lidx60, ridx60, idx57]
  rw [Ideal.maximumf_def, Ideal.addf_def, Ideal.addf_def]
  unfold Sage.dense
  exact congrArg₂ max (Sage.add_swap _ _ _) Ideal.ofBits_zero_f32

/-! Index identities of the readout, read at the entry (r, j) of a matrix with one column. -/

theorem lidx64 (r : Fin 100000) (j : Fin 1) (k : Fin 16) : lidx_main_v64 (ix2 r j) k = ix2 r k :=
  funext fun a => Fin.ext (by match a with | ⟨0, _⟩ => rfl | ⟨1, _⟩ => rfl)

theorem ridx64 (r : Fin 100000) (j : Fin 1) (k : Fin 16) : ridx_main_v64 (ix2 r j) k = ix2 k j :=
  funext fun a => Fin.ext (by match a with | ⟨0, _⟩ => rfl | ⟨1, _⟩ => rfl)

/-- The only column of a one-column matrix is column zero. -/
theorem idx66 (r : Fin 100000) (j : Fin 1) : idx_main_v66 (ix2 r j) = ix2 (0 : Fin 1) j :=
  funext fun a => Fin.ext (by
    match a with
    | ⟨0, _⟩ => rfl
    | ⟨1, _⟩ => exact (Nat.lt_one_iff.mp j.isLt).symm)

/-- The reference's result is the readout of the second hidden layer. -/
theorem out_eq : val_main_v67 x0 x1 x3 x4 x5 x6 x7 x8 x9 x10
    = Sage.readout (Sage.hidden (val_main_v53 x0 x1 x3 x4 x5) (val_main_v30 x0 x1 x3 x4 x5) (val_main_v54 x6) (val_main_v59 x8) (val_main_v56 x7))
        (val_main_v63 x9) (val_main_v65 x10) := by
  funext i
  obtain ⟨r, j, rfl⟩ : ∃ (r : Fin 100000) (j : Fin 1), i = ix2 r j := ⟨i 0, i 1, eq_ix2 i⟩
  rw [Sage.readout_apply, val_main_v67_apply, val_main_v64_apply, val_main_v66_apply]
  simp only [lidx64, ridx64, idx66]
  rw [h2_eq, Ideal.addf_def]
  rfl

end Cert.ReferenceIdeal.RefValue
end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.Bridge.lean ====
/-
  The two programs end holding the same array.

  The tiled program multiplies each neighbour sum by the reciprocal of the clamped in-degree, the reference divides by
  the clamped in-degree; the divisor is at least one, so on the extended reals the product and the quotient are one
  number. The bias rows are a vector cast to one row on one side and broadcast to one row on the other. Everything
  else is the same host operations on both sides and the same row-wise layers, block by block or whole.
-/
import proofs.«182023_j31988916420723_1_alg».proof.Proof.HostValue
import proofs.«182023_j31988916420723_1_alg».proof.Proof.Region0
import proofs.«182023_j31988916420723_1_alg».proof.Proof.Region1
import proofs.«182023_j31988916420723_1_alg».proof.Proof.RefValue
import proofs.«182023_j31988916420723_1_alg».proof.Proof.SageSpec
import proofs.«182023_j31988916420723_1_alg».proof.Proof.LibRowLayers
import Idealize.ShloMosaic.Lib.ValueIdx
import Idealize.ShloMosaic.Lib.ValueLayout
import Idealize.ShloMosaic.Lib.IdealHost

set_option maxRecDepth 16384
noncomputable section
namespace Cert.Bridge
open Cert.KernelIdeal Cert.KernelIdeal.Gen Cert.KernelIdeal.HostValue Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## A product with the reciprocal of a divisor that is at least one is the quotient by it -/

/-- The number-level fact, with the reciprocal named. -/
theorem mul_inv_eq_div (a inv d : EReal) (hinv : inv = Ideal.div 1 d) (hd : 1 ≤ d) : a * inv = Ideal.div a d := by
  subst hinv; exact Sage.mul_recip_eq_div a d hd

/-- A neighbour sum of one column times a reciprocal column is its quotient by the divisor column, when the
    reciprocal column holds one over the divisor and the divisor is at least one everywhere. -/
theorem mul_recip_column (agg inv : Cert.KernelIdeal.S100000x1.Idx → EReal) (d : Cert.KernelIdeal.S100000.Idx → EReal)
    (hinv : ∀ (r : Fin 100000) (u : Fin 1), inv (ix2 r u) = Ideal.div 1 (d (ix1 r))) (hd : ∀ i, 1 ≤ d i)
    (r : Fin 100000) (u : Fin 1) : agg (ix2 r u) * inv (ix2 r u) = Ideal.div (agg (ix2 r u)) (d (ix1 r)) :=
  mul_inv_eq_div _ _ _ (hinv r u) (hd _)

/-- The clamped in-degree is at least one at every node: it is the larger of a count and one. -/
theorem one_le_max_one (x : EReal) : 1 ≤ max x (Ideal.ofBits .f32 0x3F800000#32) := by
  rw [Ideal.ofBits_one_f32]; exact le_max_right _ _

theorem one_le_degree (x1 : (⟨Cert.ReferenceIdeal.S2x2500000, .i32⟩ : BufTy).Contents (Elt Ideal)) (i : Cert.ReferenceIdeal.S100000.Idx) :
    1 ≤ Cert.ReferenceIdeal.Read.val_main_v19 x1 i := by
  rw [Cert.ReferenceIdeal.Read.val_main_v19_apply, Cert.ReferenceIdeal.Read.val_main_v18_apply,
    Cert.ReferenceIdeal.Read.val_main_cst_3_apply]
  generalize Cert.ReferenceIdeal.Read.val_main_v17 x1 i = x
  exact one_le_max_one x

/-- One over a divisor vector, cast to a column, at row r. -/
theorem recip_column_apply (d : Cert.KernelIdeal.S100000.Idx → EReal) (r : Fin 100000) (u : Fin 1) :
    shapeCast S100000x1 (Host.divf (broadcastInDim S100000 ![] bcast_S_S100000 (constant (F := Ideal) S_ .f32 0x3F800000#32)) d)
        shapeCasts_S100000_S100000x1 (ix2 r u)
      = Ideal.div 1 (d (ix1 r)) := by
  refine (RowLayers.column_apply shapeCasts_S100000_S100000x1 _ r u).trans ?_
  refine (RowLayers.hostDivf_apply _ _ _).trans ?_
  rw [RowLayers.scalarBroadcast_apply, Ideal.ofBits_one_f32]

/-! ## The two programs' means agree -/

/-- The first layer's mean: the neighbour sum times the reciprocal column is its quotient by the clamped in-degree. -/
theorem mean1_eq : V1 m ρ c main_v23 = Cert.ReferenceIdeal.Read.val_main_v21 (m ((c : Thread nD τ).loc main_arg0)) (m ((c : Thread nD τ).loc main_arg1)) := by
  rw [V1_v23, W1_v12]
  unfold Cert.ReferenceIdeal.Read.val_main_v21 Cert.ReferenceIdeal.Read.val_main_v20
  generalize Cert.ReferenceIdeal.Read.val_main_v13 (m ((c : Thread nD τ).loc main_arg0)) (m ((c : Thread nD τ).loc main_arg1)) = agg
  have hd := one_le_degree (m ((c : Thread nD τ).loc main_arg1))
  generalize Cert.ReferenceIdeal.Read.val_main_v19 (m ((c : Thread nD τ).loc main_arg1)) = d at hd ⊢
  funext i
  obtain ⟨r, u, rfl⟩ : ∃ (r : Fin 100000) (u : Fin 1), i = ix2 r u := ⟨i 0, i 1, eq_ix2 i⟩
  rw [mulf_apply]
  refine (mul_inv_eq_div _ _ _ (recip_column_apply d r u) (hd _)).trans ?_
  refine ((RowLayers.hostDivf_apply _ _ _).trans ?_).symm
  rw [RowLayers.columnBroadcast_apply]

/-- The reference counts the in-degrees once per layer; the two counts, clamped, are one vector. -/
theorem degree_again (x1 : (⟨Cert.ReferenceIdeal.S2x2500000, .i32⟩ : BufTy).Contents (Elt Ideal)) :
    Cert.ReferenceIdeal.Read.val_main_v50 x1 = Cert.ReferenceIdeal.Read.val_main_v19 x1 := by
  unfold Cert.ReferenceIdeal.Read.val_main_v50 Cert.ReferenceIdeal.Read.val_main_v19 Cert.ReferenceIdeal.Read.val_main_v48 Cert.ReferenceIdeal.Read.val_main_v17 Cert.ReferenceIdeal.Read.val_main_v49 Cert.ReferenceIdeal.Read.val_main_v18 Cert.ReferenceIdeal.Read.val_main_cst_9 Cert.ReferenceIdeal.Read.val_main_cst_3 Cert.ReferenceIdeal.Read.val_main_v46 Cert.ReferenceIdeal.Read.val_main_v15 Cert.ReferenceIdeal.Read.val_main_cst_8 Cert.ReferenceIdeal.Read.val_main_cst_2 Cert.ReferenceIdeal.Read.val_main_v47 Cert.ReferenceIdeal.Read.val_main_v16 Cert.ReferenceIdeal.Read.val_main_v34 Cert.ReferenceIdeal.Read.val_main_v3 Cert.ReferenceIdeal.Read.val_main_v33 Cert.ReferenceIdeal.Read.val_main_v2 Cert.ReferenceIdeal.Read.val_main_v45 Cert.ReferenceIdeal.Read.val_main_v14 Cert.ReferenceIdeal.Read.val_main_cst_7 Cert.ReferenceIdeal.Read.val_main_cst_1
  rfl

/-- The second layer's neighbour sum: the tiled program gathers rows of the first hidden layer in the narrow float
    format and widens them, the reference gathers them as they are; on the extended reals both read the same rows. -/
theorem agg2_eq (x0 : (⟨Cert.ReferenceIdeal.S100000x1, .f32⟩ : BufTy).Contents (Elt Ideal))
    (x1 : (⟨Cert.ReferenceIdeal.S2x2500000, .i32⟩ : BufTy).Contents (Elt Ideal))
    (x3 : (⟨Cert.ReferenceIdeal.S32x1, .f32⟩ : BufTy).Contents (Elt Ideal)) (x4 : (⟨Cert.ReferenceIdeal.S32, .f32⟩ : BufTy).Contents (Elt Ideal))
    (x5 : (⟨Cert.ReferenceIdeal.S32x1, .f32⟩ : BufTy).Contents (Elt Ideal)) :
    Host.scatterAdd scatter_S100000x32_S2500000x1_S2500000x32_1_0_0_1
        (broadcastInDim S100000x32 ![] bcast_S_S100000x32 (constant (F := Ideal) S_ .f32 0x00000000#32))
        (Cert.ReferenceIdeal.Read.val_main_v43 x1)
        (extf .f32 (Host.gather gather_S100000x32_S2500000x1_S2500000x32_1_0_n_n_0_1_132
          (α := Elt Ideal .bf16) (Cert.ReferenceIdeal.Read.val_main_v30 x0 x1 x3 x4 x5) (Cert.ReferenceIdeal.Read.val_main_v40 x1)) bitsLt_bf16_f32)
      = Cert.ReferenceIdeal.Read.val_main_v44 x0 x1 x3 x4 x5 := by
  unfold Cert.ReferenceIdeal.Read.val_main_v44 Cert.ReferenceIdeal.Read.val_main_v41 Cert.ReferenceIdeal.Read.val_main_v42 Cert.ReferenceIdeal.Read.val_main_cst_6
  refine congrArg (Host.scatterAdd _ _ _) ?_
  funext i
  rfl

/-- The second layer's mean, over the same first hidden layer on both sides. -/
theorem mean2_eq (hh : W2 m ρ c (Proc.devRef .tc main_v27)
      = Cert.ReferenceIdeal.Read.val_main_v30 (m ((c : Thread nD τ).loc main_arg0)) (m ((c : Thread nD τ).loc main_arg1)) (m ((c : Thread nD τ).loc main_arg3)) (m ((c : Thread nD τ).loc main_arg4)) (m ((c : Thread nD τ).loc main_arg5))) :
    V3 m ρ c main_v40 = Cert.ReferenceIdeal.Read.val_main_v53 (m ((c : Thread nD τ).loc main_arg0)) (m ((c : Thread nD τ).loc main_arg1)) (m ((c : Thread nD τ).loc main_arg3)) (m ((c : Thread nD τ).loc main_arg4)) (m ((c : Thread nD τ).loc main_arg5)) := by
  rw [V3_v40 m ρ c _ hh, W1_v12, agg2_eq]
  unfold Cert.ReferenceIdeal.Read.val_main_v53 Cert.ReferenceIdeal.Read.val_main_v52 Cert.ReferenceIdeal.Read.val_main_v51
  rw [degree_again]
  generalize Cert.ReferenceIdeal.Read.val_main_v44 (m ((c : Thread nD τ).loc main_arg0)) (m ((c : Thread nD τ).loc main_arg1)) (m ((c : Thread nD τ).loc main_arg3)) (m ((c : Thread nD τ).loc main_arg4)) (m ((c : Thread nD τ).loc main_arg5)) = agg
  have hd := one_le_degree (m ((c : Thread nD τ).loc main_arg1))
  generalize Cert.ReferenceIdeal.Read.val_main_v19 (m ((c : Thread nD τ).loc main_arg1)) = d at hd ⊢
  funext i
  obtain ⟨r, j, rfl⟩ : ∃ (r : Fin 100000) (j : Fin 32), i = ix2 r j := ⟨i 0, i 1, eq_ix2 i⟩
  rw [mulf_apply, RowLayers.columnAcross_apply]
  refine (mul_inv_eq_div _ _ _ (recip_column_apply d r 0) (hd _)).trans ?_
  refine ((RowLayers.hostDivf_apply _ _ _).trans ?_).symm
  rw [RowLayers.columnAcross_apply, RowLayers.columnBroadcast_apply]

/-! ## The bias rows: a vector cast to one row and the same vector broadcast to one row read the same entries -/

theorem bias1_eq : V1 m ρ c main_v26 = Cert.ReferenceIdeal.Read.val_main_v24 (m ((c : Thread nD τ).loc main_arg4)) := by
  rw [V1_v26]
  generalize (m ((c : Thread nD τ).loc main_arg4)) = b
  funext i
  obtain ⟨u, j, rfl⟩ : ∃ (u : Fin 1) (j : Fin 32), i = ix2 u j := ⟨i 0, i 1, eq_ix2 i⟩
  rw [Cert.ReferenceIdeal.Read.val_main_v24_apply]
  refine (shapeCast_a_1a_apply _ shapeCasts_S32_S1x32 u j).trans (congrArg _ ?_)
  exact funext fun a => Fin.ext (by match a with | ⟨0, _⟩ => rfl)

theorem bias2_eq : V3 m ρ c main_v43 = Cert.ReferenceIdeal.Read.val_main_v56 (m ((c : Thread nD τ).loc main_arg7)) := by
  rw [V3_v43]
  generalize (m ((c : Thread nD τ).loc main_arg7)) = b
  funext i
  obtain ⟨u, j, rfl⟩ : ∃ (u : Fin 1) (j : Fin 16), i = ix2 u j := ⟨i 0, i 1, eq_ix2 i⟩
  rw [Cert.ReferenceIdeal.Read.val_main_v56_apply]
  refine (shapeCast_a_1a_apply _ shapeCasts_S16_S1x16 u j).trans (congrArg _ ?_)
  exact funext fun a => Fin.ext (by match a with | ⟨0, _⟩ => rfl)

theorem bias3_eq : V3 m ρ c main_v45 = Cert.ReferenceIdeal.Read.val_main_v65 (m ((c : Thread nD τ).loc main_arg10)) := by
  rw [V3_v45]
  generalize (m ((c : Thread nD τ).loc main_arg10)) = b
  funext i
  obtain ⟨u, j, rfl⟩ : ∃ (u : Fin 1) (j : Fin 1), i = ix2 u j := ⟨i 0, i 1, eq_ix2 i⟩
  rw [Cert.ReferenceIdeal.Read.val_main_v65_apply]
  refine (shapeCast_a_1a_apply _ shapeCasts_S1_S1x1 u j).trans (congrArg _ ?_)
  exact funext fun a => Fin.ext (by match a with | ⟨0, _⟩ => exact (Nat.lt_one_iff.mp j.isLt))

/-! ## The result buffer: both programs end holding the readout of the same two hidden layers -/

/-- What the first region leaves in its result array is the reference's first hidden layer. -/
theorem hidden1_eq : W2 m ρ c (Proc.devRef .tc main_v27)
    = Cert.ReferenceIdeal.Read.val_main_v30 (m ((c : Thread nD τ).loc main_arg0)) (m ((c : Thread nD τ).loc main_arg1)) (m ((c : Thread nD τ).loc main_arg3)) (m ((c : Thread nD τ).loc main_arg4)) (m ((c : Thread nD τ).loc main_arg5)) := by
  rw [show W2 m ρ c (Proc.devRef .tc main_v27) = (dat0 (V1 m ρ) c).arrAt 5 cfg0.N from W2_arr m ρ c 5,
    Cert.KernelIdeal.Region0.final0 (V1 m ρ) c, mean1_eq, V1_arg0, V1_v24, V1_v25, bias1_eq]
  exact (Cert.ReferenceIdeal.RefValue.h1_eq _ _ _ _ _).symm

/-- What the second region leaves in the result buffer is the reference's result. -/
theorem result_eq : W4 m ρ c (Proc.devRef .tc main_v46)
    = Cert.ReferenceIdeal.Read.val_main_v67 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [show W4 m ρ c (Proc.devRef .tc main_v46) = (dat1 (V3 m ρ) c).arrAt 7 cfg1.N from W4_arr m ρ c 7,
    Cert.KernelIdeal.Region1.final1 (V3 m ρ) c, mean2_eq m ρ c (hidden1_eq m ρ c), V3_v27, hidden1_eq, V3_v41, V3_v42,
    bias2_eq, V3_v44, bias3_eq]
  exact (Cert.ReferenceIdeal.RefValue.out_eq _ _ _ _ _ _ _ _ _ _).symm

end Cert.Bridge
end
-- ==== Proof.lean ====
/-
  A two-layer mean-aggregating graph network (1 → 32 → 16 features, then a linear readout to one) on 100 000 nodes
  and 2 500 000 edges: a program that tiles the dense layers over blocks of 10 000 nodes against a plain whole-array
  reference.

  Both programs form the in-degrees and the neighbour sums with the same host gather and scatter-add. The tiled
  program multiplies a neighbour sum by the reciprocal of the clamped in-degree, max(deg, 1), where the reference
  divides by it: on the extended reals x · (1 / d) is x / d for every x once d is at least one. A hidden layer is
  the larger of zero and  mean · Wlᵀ + x · Wrᵀ + b, the tiled program adding the bias last and the reference second;
  addition of extended reals is commutative and associative. Narrowing and widening of the float format are the
  identity, the matrix unit's product into a zero accumulator and the host's product are one sum, and a row of a
  block is a row of the whole array. So the result arrays are equal entry by entry, with no use of finiteness.

  The frames of the two tiled programs are the generated ones; the reference's frame is its generated run with the
  result dropped; the idealization rewrote nothing.
-/
import proofs.«182023_j31988916420723_1_alg».proof.Defs
import proofs.«182023_j31988916420723_1_alg».proof.Proof.Gen.Kernel
import proofs.«182023_j31988916420723_1_alg».proof.Proof.Gen.Kernel.Skeleton
import proofs.«182023_j31988916420723_1_alg».proof.Proof.Gen.Kernel.Launch
import proofs.«182023_j31988916420723_1_alg».proof.Proof.Gen.Kernel.Points
import proofs.«182023_j31988916420723_1_alg».proof.Proof.Gen.Kernel.Frame
import proofs.«182023_j31988916420723_1_alg».proof.Proof.Gen.KernelIdeal
import proofs.«182023_j31988916420723_1_alg».proof.Proof.Gen.KernelIdeal.Skeleton
import proofs.«182023_j31988916420723_1_alg».proof.Proof.Gen.KernelIdeal.Launch
import proofs.«182023_j31988916420723_1_alg».proof.Proof.Gen.KernelIdeal.Points
import proofs.«182023_j31988916420723_1_alg».proof.Proof.Gen.KernelIdeal.Frame
import proofs.«182023_j31988916420723_1_alg».proof.Proof.Gen.ReferenceIdeal
import proofs.«182023_j31988916420723_1_alg».proof.Proof.Gen.ReferenceIdeal.Run
import proofs.«182023_j31988916420723_1_alg».proof.Proof.Gen.ReferenceIdeal.Read
import proofs.«182023_j31988916420723_1_alg».proof.Proof.Gen.Pre_finite_inputs
import proofs.«182023_j31988916420723_1_alg».proof.Proof.KernelRun
import proofs.«182023_j31988916420723_1_alg».proof.Proof.Bridge
import Idealize.ShloMosaic.Adequacy
import Idealize.ShloMosaic.Init

noncomputable section

namespace Cert.Proof

open Idealize.ShloMosaic Idealize.ShloMosaic.TcCoe Idealize.SL.Sem

section Claims

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the tiled program's result buffer ends at what its second region's
    write-backs leave, the reference's at its composed term; the two are one array. -/
theorem algebraic : Cert.algebraic_KernelIdeal_ReferenceIdeal := by
  intro m ρ m' ρ' _ hagree
  refine ⟨fun c => Cert.KernelIdeal.Gen.W4 m ρ c (Proc.devRef .tc Cert.KernelIdeal.main_v46),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6, h7, h8, h9, h10⟩ := hagree c
  rw [Cert.ReferenceIdeal.Read.val_main_v67_eq, h0, h1, h3, h4, h5, h6, h7, h8, h9, h10]
  exact (Cert.Bridge.result_eq m ρ c).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
